-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S16384x1024 .f32) (main_arg1 : FVec F S1024x1024 .f32) (main_arg2 : FVec F S256x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  main_v13
-- ==== Kernel.lean ====
abbrev S16384x1024 : Shape := ⟨2, ![16384, 1024]⟩
abbrev S1024x1024 : Shape := ⟨2, ![1024, 1024]⟩
abbrev S256x1024 : Shape := ⟨2, ![256, 1024]⟩
abbrev S1x1024 : Shape := ⟨2, ![1, 1024]⟩
abbrev S1024 : Shape := ⟨1, ![1024]⟩
abbrev S1024x1 : Shape := ⟨2, ![1024, 1]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S256x1024, .f32⟩
  | .hbm, ⟨3, _⟩ => ⟨S256x1024, .bf16⟩
  | .hbm, ⟨4, _⟩ => ⟨S1x1024, .f32⟩
  | .hbm, ⟨5, _⟩ => ⟨S16384x1024, .f32⟩
  | .local _ .vmem, ⟨0, _⟩ => ⟨S1024x1024, .f32⟩
  | .local _ .vmem, ⟨1, _⟩ => ⟨S256x1024, .f32⟩
  | .local _ .vmem, ⟨2, _⟩ => ⟨S256x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S256x1024, .f32⟩
  | .local _ .vmem, ⟨7, _⟩ => ⟨S256x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  packedbf16_S256x1024_S256x1024_0_0 : (Rect.unit (s := S256x1024) ![0, 0] S256x1024.size inb_S256x1024_S256x1024_0_0).PackedRows (EltTy.packing .bf16)
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  shapeCasts_S256x1024_S256x1024 : S256x1024.ShapeCasts S256x1024
  shapeCasts_S1x1024_S1x1024 : S1x1024.ShapeCasts S1x1024
  broadcasts_S1x1024_S512x1024 : S1x1024.Broadcasts S512x1024
  dot_S256x1024_S1024x1024_S256x1024_1_1_0_0_n_n_wf : DotDims.WF S256x1024 S1024x1024 S256x1024 [1] [1] [0] [0] [] []
  dot_S512x1024_S256x1024_S512x256_1_1_0_0_n_n_wf : DotDims.WF S512x1024 S256x1024 S512x256 [1] [1] [0] [0] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .f32 = 32 ∨ (Rect.block (s := S256x1024) S256x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .bf16 = 32 ∨ (Rect.block (s := S256x1024) S256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S16384x1024.size a
  hwx1_4 : ∀ i : grid1.Coords, EltTy.bits .f32 = 32 ∨ (Rect.block (s := S16384x1024) S512x1024.size (cc1_transform_4 i) (hinb1_4 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg1) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x1024.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S256x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x1 : Shape := ⟨2, ![1024, 1]⟩
abbrev S1024x256 : Shape := ⟨2, ![1024, 256]⟩
abbrev S16384x256 : Shape := ⟨2, ![16384, 256]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S256x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S1024x1024, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S1024x1024, .f32⟩
  | .hbm, ⟨22, _⟩ => ⟨S1024x1024, .f32⟩
  | .hbm, ⟨23, _⟩ => ⟨S1024x256, .f32⟩
  | .hbm, ⟨24, _⟩ => ⟨S16384x256, .f32⟩
  | .hbm, ⟨25, _⟩ => ⟨S_, .f32⟩
  | .hbm, ⟨26, _⟩ => ⟨S16384x256, .f32⟩
  | .hbm, ⟨27, _⟩ => ⟨S16384x256, .i1⟩
  | .hbm, ⟨28, _⟩ => ⟨S_, .f32⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .i1⟩
  | .hbm, ⟨39, _⟩ => ⟨S_, .f32⟩
  | .hbm, ⟨40, _⟩ => ⟨S_, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S1024x256, .f32⟩
  | .hbm, ⟨45, _⟩ => ⟨S256x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_cst_3 : Ref sig .tc := ⟨.hbm, 29, rfl⟩
abbrev main_call2_v0 : Ref sig .tc := ⟨.hbm, 30, rfl⟩
abbrev main_call2_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_cst_6 : Ref sig .tc := ⟨.hbm, 40, rfl⟩
abbrev main_call3_v0 : Ref sig .tc := ⟨.hbm, 41, rfl⟩
abbrev main_call3_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_7 : Ref sig .tc := ⟨.hbm, 47, rfl⟩
abbrev main_v24 : Ref sig .tc := ⟨.hbm, 48, rfl⟩
abbrev main_v25 : Ref sig .tc := ⟨.hbm, 49, rfl⟩
abbrev main_cst_8 : Ref sig .tc := ⟨.hbm, 50, rfl⟩
abbrev main_v26 : Ref sig .tc := ⟨.hbm, 51, rfl⟩
abbrev main_v27 : Ref sig .tc := ⟨.hbm, 52, rfl⟩
abbrev main_cst_9 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  reducesTo_S1024x1024_S1024_d1 : S1024x1024.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  transposes_S256x1024_S1024x256_1_0 : S256x1024.Transposes [1, 0] S1024x256
  bcast_S_S16384x256 : S_.BroadcastsInDim S16384x256 (![] : Fin 0 → Fin S16384x256.rank)
  bcast_S_S1024x256 : S_.BroadcastsInDim S1024x256 (![] : Fin 0 → Fin S1024x256.rank)
  transposes_S1024x256_S256x1024_1_0 : S1024x256.Transposes [1, 0] S256x1024
  bcast_S_S16384x1024 : S_.BroadcastsInDim S16384x1024 (![] : Fin 0 → Fin S16384x1024.rank)
  transposes_S1024x1_S1x1024_1_0 : S1024x1.Transposes [1, 0] S1x1024
  bcast_S1x1024_S16384x1024_0_1 : S1x1024.BroadcastsInDim S16384x1024 (![0, 1] : Fin 2 → Fin S16384x1024.rank)
  dot_S16384x1024_S1024x256_S16384x256_1_0_0_1_n_n_wf : DotDims.WF S16384x1024 S1024x256 S16384x256 [1] [0] [0] [1] [] []
  dot_S1024x1024_S1024x256_S1024x256_1_0_0_1_n_n_wf : DotDims.WF S1024x1024 S1024x256 S1024x256 [1] [0] [0] [1] [] []
  dot_S16384x256_S256x1024_S16384x1024_1_0_0_1_n_n_wf : DotDims.WF S16384x256 S256x1024 S16384x1024 [1] [0] [0] [1] [] []

variable [Facts₀]

def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf

class Facts : Prop extends Facts₀ where

variable [Facts]
-- ==== Proof.Spec.lean ====
/-
  The function both programs compute, entry by entry, on the extended reals.

  A row v of 1024 entries has the norm  n(v) = sqrt (sum_i v_i^2) + 2^-23.  Its sign code against the 256 projection
  rows P_k is  c_k(v) = 1 if sum_i (v_i / n(v)) * P_{k,i} >= 0, and -1 otherwise.  For a row x_b of the batch and a row
  w_m of the weights the result entry is

      n(x_b) * n(w_m) * cos (pi/2 * (1 - (sum_k c_k(x_b) * c_k(w_m)) / 256)),

  pi/2 and the other constants standing for the single-precision words the programs spell, which are never evaluated.
-/
import Idealize.ShloMosaic.PureOps.Ideal.Laws
import Idealize.ShloMosaic.Lib.ValueIdx

noncomputable section

open scoped BigOperators

namespace Cert.Lsh

open Idealize.ShloMosaic Idealize.ShloMosaic.ValueIdx

/-- Row `r` of an array of 1024 columns. -/
def row {R : Nat} (a : (⟨2, ![R, 1024]⟩ : Shape).Idx → EReal) (r : Fin R) : Fin 1024 → EReal := fun i => a (ix2 r i)

/-- The Euclidean norm of a row plus the single-precision machine epsilon. -/
def rowNorm (v : Fin 1024 → EReal) : EReal :=
  Ideal.sqrt (∑ i : Fin 1024, v i * v i) + Ideal.ofBits .f32 0x34000000#32

/-- The normalised row's inner product with projection row `k`. -/
def proj (v : Fin 1024 → EReal) (P : (⟨2, ![256, 1024]⟩ : Shape).Idx → EReal) (k : Fin 256) : EReal :=
  ∑ i : Fin 1024, Ideal.div (v i) (rowNorm v) * P (ix2 k i)

/-- The sign code: 1 where the projection is at least zero, else -1. -/
def code (v : Fin 1024 → EReal) (P : (⟨2, ![256, 1024]⟩ : Shape).Idx → EReal) (k : Fin 256) : EReal :=
  Scalar.select (Ideal.cmp .oge (proj v P k) (Ideal.ofBits .f32 0x00000000#32))
    (Ideal.ofBits .f32 0x3F800000#32) (Ideal.ofBits .f32 0xBF800000#32)

/-- The cosine estimate from an agreement count `d` of 256 codes: cos (pi/2 * (1 - d / 256)). -/
def cosOf (d : EReal) : EReal :=
  Ideal.cos (Ideal.ofBits .f32 0x3FC90FDB#32 * (Ideal.ofBits .f32 0x3F800000#32 - Ideal.div d (Ideal.ofBits .f32 0x43800000#32)))

/-- One result entry from a batch row, a weight row and the projection matrix. -/
def entry (xr wr : Fin 1024 → EReal) (P : (⟨2, ![256, 1024]⟩ : Shape).Idx → EReal) : EReal :=
  rowNorm xr * rowNorm wr * cosOf (∑ k : Fin 256, code xr P k * code wr P k)

/-- The whole result: entry (b, m) from row b of x and row m of w. -/
def result (x : (⟨2, ![16384, 1024]⟩ : Shape).Idx → EReal) (w : (⟨2, ![1024, 1024]⟩ : Shape).Idx → EReal)
    (P : (⟨2, ![256, 1024]⟩ : Shape).Idx → EReal) : (⟨2, ![16384, 1024]⟩ : Shape).Idx → EReal :=
  fun j => entry (row x (j 0)) (row w (j 1)) P

end Cert.Lsh

end
-- ==== Proof.LibTransposedRhsDot.lean ====
/-
  A matrix product against a transposed right operand, read at an entry, at the ideal instance.

  For a left operand [M, K] and a right operand [N, K] contracted on the LAST axis of both (the dimension record
  `DotDims.transposedRhs M K N`: no batch axis, the left rows first in the result, then the right rows), the
  product accumulated into the zero array holds at entry (i, j) the sum over k of l[i, k] · r[j, k]: the
  extended reals' sum and product, the zero accumulator's word being the real 0. The operand indices the record
  computes at a result index and a contraction position are read off coordinate by coordinate: the left one is
  (i, k), the right one (j, k); the contraction positions, a rank-1 index set of K entries, are renumbered by Fin K.
  Stated for any record EQUAL to `transposedRhs M K N`, so that a program's own record, whose fields are these
  lists, is used through `rfl`.
-/
import Idealize.ShloMosaic.PureOps.Ideal.Laws
import Idealize.ShloMosaic.Lib.ValueIdx

noncomputable section

namespace Idealize.ShloMosaic.TransposedRhsDot

open Idealize.ShloMosaic Idealize.ShloMosaic.ValueIdx

variable {M K N : Nat}

/-- The left operand's row is the result's row. -/
theorem lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction position. -/
theorem lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row is the result's column. -/
theorem rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction position. -/
theorem rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A `tpu.matmul` into the zero accumulator, its record `transposedRhs M K N`, at entry `j`: the sum over `k` of
    the left operand at (j 0, k) times the right operand at (j 1, k). -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 (j 1) k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_0 _ _
      | ⟨1, _⟩ => exact (lhs_1 _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_0 _ _
      | ⟨1, _⟩ => exact (rhs_1 _ _).trans hk)
  rw [el, er]
  rfl

end Idealize.ShloMosaic.TransposedRhsDot

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.PayloadCodes.lean ====
/-
  The first kernel's two stored values read at one entry, on the extended reals.

  For weight row m the kernel forms the row norm n(w_m) = sqrt (sum_i w_{m,i}^2) + 2^-23 and the normalised row, multiplies
  the projection matrix against the normalised rows (entry (k, m) is sum_i P_{k,i} * (w_{m,i} / n(w_m)): the factors in
  this order, which commutativity of the product turns into the specification's), compares with zero and selects 1 or -1:
  the sign code of row m against projection row k.  The norms are stored as a row vector, entry (0, m) the norm of row m.
-/
import proofs.«138626_j85538568667753_1_alg».proof.Proof.Gen.KernelIdeal.Skeleton
import proofs.«138626_j85538568667753_1_alg».proof.Proof.Spec
import proofs.«138626_j85538568667753_1_alg».proof.Proof.LibTransposedRhsDot
import proofs.«138626_j85538568667753_1_alg».proof.Proof.LibPlainDot
import proofs.«138626_j85538568667753_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- The sum of a [1024, 1024] array along its second axis, read at row m: the sum of the row's 1024 entries. -/
theorem rowSum_apply (src : FVec Ideal S1024x1024 .f32) (h : S1024x1024.Reduces [1] S1024) (hφ : FKind.Formats .f32)
    (hacc : (0x00000000#32 : BitVec 32) = 0x00000000#32) (m : Fin 1024) :
    multiReduction (F := Ideal) .add [1] S1024 src 0x00000000#32 h hφ hacc (ix1 m) = ∑ i : Fin 1024, src (ix2 m i) := by
  refine (Ideal.multiReduction_add_single src 0x00000000#32 h hφ hacc (ix1 m)).trans ?_
  refine Finset.sum_congr rfl fun i _ => congrArg src (funext fun a => ?_)
  match a with
  | ⟨0, _⟩ => rfl
  | ⟨1, _⟩ => rfl

/-- The norm column the first kernel computes: entry (m, 0) is sqrt (sum_i w_{m,i}^2) + 2^-23, the norm of weight row m. -/
theorem pay1_entry (w : Vec Ideal S1024x1024 .f32) (m : Fin 1024) :
    k0_pay1 (F := Ideal) w (ix2 m (0 : Fin 1)) = Lsh.rowNorm (Lsh.row w m) := by
  have hs : shapeCast S1024x1 (multiReduction (F := Ideal) .add [1] S1024 (mulf w w) 0x00000000#32 reduces_S1024x1024_S1024 (.inl rfl) rfl)
      shapeCasts_S1024_S1024x1 (ix2 m (0 : Fin 1)) = ∑ i : Fin 1024, w (ix2 m i) * w (ix2 m i) :=
    (Cert.Keepdims.shapeCast_a_a1_apply _ _ m 0).trans (rowSum_apply (mulf w w) _ _ _ m)
  exact congrArg (fun s => Ideal.sqrt s + Ideal.ofBits .f32 0x34000000#32) hs

/-- The norm row the first kernel stores: entry (0, m) is the norm of weight row m. -/
theorem norm_entry (w : Vec Ideal S1024x1024 .f32) (m : Fin 1024) :
    k0_pay3 (F := Ideal) w (ix2 (0 : Fin 1) m) = Lsh.rowNorm (Lsh.row w m) := by
  unfold k0_pay3
  refine (transpose_apply [1, 0] (k0_pay1 (F := Ideal) w) transposes_S1024x1_p1_0_S1x1024 (ix2 (0 : Fin 1) m)
    (ix2 m (0 : Fin 1)) fun b => ?_).trans (pay1_entry w m)
  match b with
  | ⟨0, _⟩ => rfl
  | ⟨1, _⟩ => rfl

/-- The product of the projection matrix with the normalised weight rows, at entry (k, m): the projection of the
    normalised row m on projection row k. -/
theorem proj_entry (w : Vec Ideal S1024x1024 .f32) (P : Vec Ideal S256x1024 .f32) (k : Fin 256) (m : Fin 1024) :
    matmul (F := Ideal) (φ₁ := .f32) (φ₂ := .f32) dot_S256x1024_S1024x1024_S256x1024_1_1_0_0_n_n (some .fp32) P
        (divf w (broadcastTo S1024x1024 (k0_pay1 (F := Ideal) w) broadcasts_S1024x1_S1024x1024))
        (constant S256x1024 .f32 0x00000000#32) (ix2 k m)
      = Lsh.proj (Lsh.row w m) P k := by
  refine (TransposedRhsDot.matmul_zero_apply dot_S256x1024_S1024x1024_S256x1024_1_1_0_0_n_n rfl (some .fp32) P _ (ix2 k m)).trans ?_
  unfold Lsh.proj
  refine Finset.sum_congr rfl fun i _ => ?_
  refine (mul_comm _ _).trans ?_
  refine congrArg (fun q => Ideal.div (w (ix2 m i)) q * P (ix2 k i)) ?_
  exact (Cert.Keepdims.broadcastTo_a1_ab_apply _ _ m i).trans (pay1_entry w m)

/-- The code table the first kernel stores: entry (k, m) is the sign code of weight row m against projection row k. -/
theorem code_entry (w : Vec Ideal S1024x1024 .f32) (P : Vec Ideal S256x1024 .f32) (k : Fin 256) (m : Fin 1024) :
    k0_pay2 (F := Ideal) w P (ix2 k m) = Lsh.code (Lsh.row w m) P k :=
  congrArg (fun p => Scalar.select (Ideal.cmp .oge p (Ideal.ofBits .f32 0x00000000#32))
    (Ideal.ofBits .f32 0x3F800000#32) (Ideal.ofBits .f32 0xBF800000#32)) (proj_entry w P k m)

end Cert.KernelIdeal.Payload

end
-- ==== Proof.PayloadMain.lean ====
/-
  The second kernel's stored block read at one entry, on the extended reals.

  For row p of its batch block the kernel forms the row norm n(x_p) and the normalised row, its projections against the
  rows of P (entry (p, k) is sum_i (x_{p,i} / n(x_p)) * P_{k,i}), their sign codes, the product of the codes with the code
  table it is given (entry (p, m) is sum_k c_k(x_p) * cT_{k,m}), and stores
  n(x_p) * wn_{0,m} * cos (pi/2 * (1 - that sum / 256)), wn the norm row it is given.
-/
import proofs.«138626_j85538568667753_1_alg».proof.Proof.Gen.KernelIdeal.Skeleton
import proofs.«138626_j85538568667753_1_alg».proof.Proof.Spec
import proofs.«138626_j85538568667753_1_alg».proof.Proof.LibTransposedRhsDot
import proofs.«138626_j85538568667753_1_alg».proof.Proof.LibPlainDot
import proofs.«138626_j85538568667753_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen

namespace Main

/-- The sum along a row: the reduction over the second axis, read at row p, is the sum over the row's 1024 entries. -/
theorem rowSum (src : FVec Ideal S512x1024 .f32) (h : S512x1024.Reduces [1] S512)
    (hacc : (0x00000000#32 : BitVec 32) = 0x00000000#32) (p : Fin 512) :
    multiReduction .add [1] S512 src 0x00000000#32 h (.inl rfl) hacc (ix1 p) = ∑ i : Fin 1024, src (ix2 p i) := by
  refine (Ideal.multiReduction_add_single src 0x00000000#32 h (.inl rfl) hacc (ix1 p)).trans ?_
  refine Finset.sum_congr rfl fun k _ => congrArg src ?_
  funext c
  match c with
  | ⟨0, _⟩ => rfl
  | ⟨1, _⟩ => rfl

/-- The column of norms at row p is the specification's norm of row p. -/
theorem normCol (xb : FVec Ideal S512x1024 .f32) (h : S512x1024.Reduces [1] S512) (hc : S512.ShapeCasts S512x1)
    (hacc : (0x00000000#32 : BitVec 32) = 0x00000000#32) (p : Fin 512) :
    addf (sqrt (shapeCast S512x1 (multiReduction .add [1] S512 (mulf xb xb) 0x00000000#32 h (.inl rfl) hacc) hc))
        (broadcast S512x1 (Scalar.ofBits .f32 0x34000000#32)) (ix2 p (0 : Fin 1))
      = Lsh.rowNorm (Lsh.row xb p) := by
  show Ideal.sqrt (shapeCast S512x1 (multiReduction .add [1] S512 (mulf xb xb) 0x00000000#32 h (.inl rfl) hacc) hc (ix2 p (0 : Fin 1)))
      + Ideal.ofBits .f32 0x34000000#32 = _
  rw [Cert.Keepdims.shapeCast_a_a1_apply, rowSum]
  rfl

/-- The first product's entry (p, k): the normalised row p against projection row k. -/
theorem projEntry (xb : FVec Ideal S512x1024 .f32) (P : FVec Ideal S256x1024 .f32) (nc : FVec Ideal S512x1 .f32)
    (hb : S512x1.Broadcasts S512x1024) (p : Fin 512) (k : Fin 256)
    (hn : nc (ix2 p (0 : Fin 1)) = Lsh.rowNorm (Lsh.row xb p)) :
    matmul dot_S512x1024_S256x1024_S512x256_1_1_0_0_n_n (some .fp32) (divf xb (broadcastTo S512x1024 nc hb)) P
        (constant S512x256 .f32 0x00000000#32) (ix2 p k)
      = Lsh.proj (Lsh.row xb p) P k := by
  refine (Idealize.ShloMosaic.TransposedRhsDot.matmul_zero_apply _ rfl _ _ _ _).trans ?_
  refine Finset.sum_congr rfl fun i _ => ?_
  show Ideal.div (xb (ix2 p i)) (broadcastTo S512x1024 nc hb (ix2 p i)) * P (ix2 k i) = _
  rw [Cert.Keepdims.broadcastTo_a1_ab_apply, hn]
  rfl

/-- The selected sign at (p, k), rounded to the narrower format, is the specification's code. -/
theorem codeEntry (xb : FVec Ideal S512x1024 .f32) (P : FVec Ideal S256x1024 .f32) (pr : FVec Ideal S512x256 .f32)
    (hlt : FTy.bits .bf16 < FTy.bits .f32) (p : Fin 512) (k : Fin 256)
    (hp : pr (ix2 p k) = Lsh.proj (Lsh.row xb p) P k) :
    (truncf .bf16 (select (cmpf .oge pr (broadcast S512x256 (Scalar.ofBits .f32 0x00000000#32)))
        (broadcast S512x256 (Scalar.ofBits .f32 0x3F800000#32)) (broadcast S512x256 (Scalar.ofBits .f32 0xBF800000#32))) hlt
      : FVec Ideal S512x256 .bf16) (ix2 p k)
      = Lsh.code (Lsh.row xb p) P k := by
  show Scalar.select (Ideal.cmp .oge (pr (ix2 p k)) (Ideal.ofBits .f32 0x00000000#32))
      (Ideal.ofBits .f32 0x3F800000#32) (Ideal.ofBits .f32 0xBF800000#32) = _
  rw [hp]
  rfl

/-- The second product's entry (p, m): the codes of row p against column m of the code table. -/
theorem countEntry (c : FVec Ideal S512x256 .bf16) (cT : FVec Ideal S256x1024 .bf16) (hs : S256x1024.ShapeCasts S256x1024)
    (p : Fin 512) (m : Fin 1024) :
    matmul dot_S512x256_S256x1024_S512x1024_1_0_0_1_n_n none c (shapeCast S256x1024 cT hs)
        (constant S512x1024 .f32 0x00000000#32) (ix2 p m)
      = ∑ k : Fin 256, c (ix2 p k) * cT (ix2 k m) := by
  rw [shapeCast_self]
  exact Cert.PlainDot.matmul_zero_apply _ rfl _ _ _ _

/-- The closing arithmetic at (p, m): the norm of row p times the given norm at m times the cosine estimate. -/
theorem tailEntry (nc : FVec Ideal S512x1 .f32) (cnt : FVec Ideal S512x1024 .f32) (wn : FVec Ideal S1x1024 .f32)
    (hb : S512x1.Broadcasts S512x1024) (hr : S1x1024.Broadcasts S512x1024) (hs : S1x1024.ShapeCasts S1x1024)
    (p : Fin 512) (m : Fin 1024) :
    mulf (mulf (broadcastTo S512x1024 nc hb) (broadcastTo S512x1024 (shapeCast S1x1024 wn hs) hr))
        (cos (mulf (broadcast S512x1024 (Scalar.ofBits .f32 0x3FC90FDB#32))
          (subf (broadcast S512x1024 (Scalar.ofBits .f32 0x3F800000#32))
            (divf cnt (broadcast S512x1024 (Scalar.ofBits .f32 0x43800000#32)))))) (ix2 p m)
      = nc (ix2 p (0 : Fin 1)) * wn (ix2 (0 : Fin 1) m) * Lsh.cosOf (cnt (ix2 p m)) := by
  show broadcastTo S512x1024 nc hb (ix2 p m) * broadcastTo S512x1024 (shapeCast S1x1024 wn hs) hr (ix2 p m)
      * Lsh.cosOf (cnt (ix2 p m)) = _
  rw [Cert.Keepdims.broadcastTo_a1_ab_apply, broadcastTo_1b_ab_apply, shapeCast_self]

end Main

/-- The block the second kernel stores, at row p and column m, from its batch block, the projection matrix, a code table
    and a norm row. -/
theorem main_entry (xb : Vec Ideal S512x1024 .f32) (P : Vec Ideal S256x1024 .f32) (cT : Vec Ideal S256x1024 .bf16)
    (wn : Vec Ideal S1x1024 .f32) (p : Fin 512) (m : Fin 1024) :
    k1_pay1 (F := Ideal) xb P cT wn (ix2 p m)
      = Lsh.rowNorm (Lsh.row xb p) * wn (ix2 (0 : Fin 1) m)
          * Lsh.cosOf (∑ k : Fin 256, Lsh.code (Lsh.row xb p) P k * cT (ix2 k m)) := by
  refine (Main.tailEntry _ _ wn _ _ _ p m).trans ?_
  refine congrArg₂ (fun a b => a * wn (ix2 (0 : Fin 1) m) * Lsh.cosOf b) (Main.normCol xb _ _ _ p) ?_
  refine (Main.countEntry _ cT _ p m).trans ?_
  refine Finset.sum_congr rfl fun k _ => congrArg (· * cT (ix2 k m)) ?_
  exact Main.codeEntry xb P _ _ p k (Main.projEntry xb P _ _ p k (Main.normCol xb _ _ _ p))

end Cert.KernelIdeal.Payload

end
-- ==== Proof.KernelValue.lean ====
/-
  The arrays the two kernel regions leave, as functions of the arrays they are entered from.

  The first region has one grid point and every window is its whole array: it leaves the code table (entry (k, m) the sign
  code of weight row m against projection row k) and the norm row (entry (0, m) the norm of weight row m).  The second
  region has 32 points; point t reads rows 512 t … 512 t + 511 of the batch and writes the same rows of the result, the
  other windows whole; its blocks tile the result, whose entry (b, m) is the stored entry of batch row b and column m.
-/
import proofs.«138626_j85538568667753_1_alg».proof.Proof.Gen.KernelIdeal.Frame
import proofs.«138626_j85538568667753_1_alg».proof.Proof.KernelRun
import proofs.«138626_j85538568667753_1_alg».proof.Proof.PayloadCodes
import proofs.«138626_j85538568667753_1_alg».proof.Proof.PayloadMain
import proofs.«138626_j85538568667753_1_alg».proof.Proof.Spec
import Idealize.ShloMosaic.Lib.Pipeline.Value
import Idealize.ShloMosaic.Lib.ValueIdx

set_option maxRecDepth 16384

noncomputable section

open scoped BigOperators

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- The code table as an array: entry (k, m) is the sign code of row m of `w` against row k of `P`. -/
def codeTable (w : S1024x1024.Idx → EReal) (P : S256x1024.Idx → EReal) : S256x1024.Idx → EReal :=
  fun i => Lsh.code (Lsh.row w (i 1)) P (i 0)

/-- The norm row as an array: entry (0, m) is the norm of row m of `w`. -/
def normRow (w : S1024x1024.Idx → EReal) : S1x1024.Idx → EReal :=
  fun i => Lsh.rowNorm (Lsh.row w (i 1))

section Regions
variable (V : (c : Dev nD) → (b : Ref sig .tc) → Buf (Elt Ideal) ((c : Thread nD τ).loc b))

/-- The first region's index maps: every window's one block sits at the origin. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The weights' block at the one point is the weights array. -/
theorem iblk0_0_eq (c : Dev nD) (t : Fin cfg0.N) : (iblk0 V c 0 t : Vec Ideal S1024x1024 .f32) = V c main_arg1 := by
  obtain ⟨e0, e1, -⟩ := idx_facts0 t
  funext y
  unfold iblk0
  rw [View.read_apply]
  show V c main_arg1 _ = V c main_arg1 y
  congr 1
  funext a
  apply Fin.ext
  match a with
  | ⟨0, _⟩ => show win0_0.index t 0 * 1024 + 1 * (y 0).val = (y 0).val; rw [e0]; omega
  | ⟨1, _⟩ => show win0_0.index t 1 * 1024 + 1 * (y 1).val = (y 1).val; rw [e1]; omega

/-- The projection matrix's block at the one point is the matrix. -/
theorem iblk0_1_eq (c : Dev nD) (t : Fin cfg0.N) : (iblk0 V c 1 t : Vec Ideal S256x1024 .f32) = V c main_arg2 := by
  obtain ⟨-, -, e0, e1, -⟩ := idx_facts0 t
  funext y
  unfold iblk0
  rw [View.read_apply]
  show V c main_arg2 _ = V c main_arg2 y
  congr 1
  funext a
  apply Fin.ext
  match a with
  | ⟨0, _⟩ => show win0_1.index t 0 * 256 + 1 * (y 0).val = (y 0).val; rw [e0]; omega
  | ⟨1, _⟩ => show win0_1.index t 1 * 1024 + 1 * (y 1).val = (y 1).val; rw [e1]; omega

/-- What the one point writes back through the code table's window is the code table of the entry arrays. -/
theorem flushed0_2_eq (c : Dev nD) (t : Fin cfg0.N) :
    (dat0 V c).flushed 2 t = ((cfg0.win 2).blk t).view.read (Elt Ideal) (codeTable (V c main_arg1) (V c main_arg2)) := by
  obtain ⟨-, -, -, -, e0, e1, -⟩ := idx_facts0 t
  show (cfg0.win 2).cut (grid0.coords t) ((dat0 V c).after 2 t) = _
  rw [after0_2]
  unfold out0_2
  rw [View.canon_unit_zero hz]
  simp only [View.ld_unit_zero (S := S1024x1024) hz, View.ld_unit_zero (S := S256x1024) hz]
  rw [iblk0_0_eq, iblk0_1_eq]
  funext j
  obtain ⟨k, mm, rfl⟩ : ∃ (k : Fin 256) (mm : Fin 1024), j = ix2 k mm := ⟨j 0, j 1, eq_ix2 j⟩
  show k0_pay2 (V c main_arg1) (V c main_arg2) (ix2 k mm) = codeTable (V c main_arg1) (V c main_arg2) (((cfg0.win 2).blk t).view.emb (ix2 k mm))
  refine (Payload.code_entry _ _ k mm).trans ?_
  have he : ((cfg0.win 2).blk t).view.emb (ix2 k mm) = ix2 k mm := by
    funext a
    apply Fin.ext
    match a with
    | ⟨0, _⟩ => show win0_2.index t 0 * 256 + 1 * k.val = k.val; rw [e0]; omega
    | ⟨1, _⟩ => show win0_2.index t 1 * 1024 + 1 * mm.val = mm.val; rw [e1]; omega
  rw [he]
  rfl

/-- What the one point writes back through the norm row's window is the norm row of the entry weights. -/
theorem flushed0_3_eq (c : Dev nD) (t : Fin cfg0.N) :
    (dat0 V c).flushed 3 t = ((cfg0.win 3).blk t).view.read (Elt Ideal) (normRow (V c main_arg1)) := by
  obtain ⟨-, -, -, -, -, -, e0, e1⟩ := idx_facts0 t
  show (cfg0.win 3).cut (grid0.coords t) ((dat0 V c).after 3 t) = _
  rw [after0_3]
  unfold out0_3
  rw [View.canon_unit_zero hz]
  simp only [View.ld_unit_zero (S := S1024x1024) hz]
  rw [iblk0_0_eq]
  funext j
  obtain ⟨u, mm, rfl⟩ : ∃ (u : Fin 1) (mm : Fin 1024), j = ix2 u mm := ⟨j 0, j 1, eq_ix2 j⟩
  obtain rfl : u = 0 := Subsingleton.elim _ _
  show k0_pay3 (V c main_arg1) (ix2 (0 : Fin 1) mm) = normRow (V c main_arg1) (((cfg0.win 3).blk t).view.emb (ix2 (0 : Fin 1) mm))
  refine (Payload.norm_entry _ mm).trans ?_
  have he : ((cfg0.win 3).blk t).view.emb (ix2 (0 : Fin 1) mm) = ix2 (0 : Fin 1) mm := by
    funext a
    apply Fin.ext
    match a with
    | ⟨0, _⟩ => show win0_3.index t 0 * 1 + 1 * 0 = 0; rw [e0]
    | ⟨1, _⟩ => show win0_3.index t 1 * 1024 + 1 * mm.val = mm.val; rw [e1]; omega
  rw [he]
  rfl

/-- The one point's block of the code table's window is the whole array. -/
theorem cover0_2 (t : Fin cfg0.N) (i : S256x1024.Idx) : i ∈ ((cfg0.win 2).blk t).view.set := by
  obtain ⟨-, -, -, -, e0, e1, -⟩ := idx_facts0 t
  show i ∈ ((View.whole main_v0_0).slice (win0_2.rect t)).set
  rw [View.set_slice_whole, Rect.mem_set_unit]
  intro a
  have h0 : (i 0).val < 256 := (i 0).isLt
  have h1 : (i 1).val < 1024 := (i 1).isLt
  match a with
  | ⟨0, _⟩ => show win0_2.index t 0 * 256 ≤ (i 0).val ∧ (i 0).val < win0_2.index t 0 * 256 + 256; rw [e0]; omega
  | ⟨1, _⟩ => show win0_2.index t 1 * 1024 ≤ (i 1).val ∧ (i 1).val < win0_2.index t 1 * 1024 + 1024; rw [e1]; omega

/-- The one point's block of the norm row's window is the whole array. -/
theorem cover0_3 (t : Fin cfg0.N) (i : S1x1024.Idx) : i ∈ ((cfg0.win 3).blk t).view.set := by
  obtain ⟨-, -, -, -, -, -, e0, e1⟩ := idx_facts0 t
  show i ∈ ((View.whole main_v0_1).slice (win0_3.rect t)).set
  rw [View.set_slice_whole, Rect.mem_set_unit]
  intro a
  have h0 : (i 0).val < 1 := (i 0).isLt
  have h1 : (i 1).val < 1024 := (i 1).isLt
  match a with
  | ⟨0, _⟩ => show win0_3.index t 0 * 1 ≤ (i 0).val ∧ (i 0).val < win0_3.index t 0 * 1 + 1; rw [e0]; omega
  | ⟨1, _⟩ => show win0_3.index t 1 * 1024 ≤ (i 1).val ∧ (i 1).val < win0_3.index t 1 * 1024 + 1024; rw [e1]; omega

/-- The grid of the first region has a point. -/
def pt0 : Fin cfg0.N := ⟨0, by decide⟩

/-- After the first region the code table's array holds the code table of the entry weights and projection matrix. -/
theorem final0_2 (c : Dev nD) : (dat0 V c).arrAt 2 cfg0.N = codeTable (V c main_arg1) (V c main_arg2) :=
  (dat0 V c).arrAt_eq_of_cover 2 _ (fun t _ => flushed0_2_eq V c t) fun i => ⟨pt0, flush0_2 pt0, cover0_2 pt0 i⟩

/-- After the first region the norm row's array holds the norm row of the entry weights. -/
theorem final0_3 (c : Dev nD) : (dat0 V c).arrAt 3 cfg0.N = normRow (V c main_arg1) :=
  (dat0 V c).arrAt_eq_of_cover 3 _ (fun t _ => flushed0_3_eq V c t) fun i => ⟨pt0, flush0_3 pt0, cover0_3 pt0 i⟩

/-! ## The second region -/

/-- The second region's index maps: point t's batch block and result block sit at block row t; the other windows' one
    block at the origin. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What the second region computes into its result array, from the arrays it is entered from: the batch `x`, the
    projection matrix `P`, a code table `cT` and a norm row `wn`. -/
def blockOut (x : S16384x1024.Idx → EReal) (P : S256x1024.Idx → EReal) (cT : S256x1024.Idx → EReal)
    (wn : S1x1024.Idx → EReal) : S16384x1024.Idx → EReal :=
  fun i => Lsh.rowNorm (Lsh.row x (i 0)) * wn (ix2 (0 : Fin 1) (i 1))
    * Lsh.cosOf (∑ k : Fin 256, Lsh.code (Lsh.row x (i 0)) P k * cT (ix2 k (i 1)))

/-- The projection matrix's block at every point is the matrix. -/
theorem iblk1_1_eq (c : Dev nD) (t : Fin cfg1.N) : (iblk1 V c 1 t : Vec Ideal S256x1024 .f32) = V c main_arg2 := by
  obtain ⟨-, -, e0, e1, -⟩ := idx_facts1 t
  funext y
  unfold iblk1
  rw [View.read_apply]
  show V c main_arg2 _ = V c main_arg2 y
  congr 1
  funext a
  apply Fin.ext
  match a with
  | ⟨0, _⟩ => show win1_1.index t 0 * 256 + 1 * (y 0).val = (y 0).val; rw [e0]; omega
  | ⟨1, _⟩ => show win1_1.index t 1 * 1024 + 1 * (y 1).val = (y 1).val; rw [e1]; omega

/-- The code table's block at every point is the table. -/
theorem iblk1_2_eq (c : Dev nD) (t : Fin cfg1.N) : (iblk1 V c 2 t : Vec Ideal S256x1024 .bf16) = V c main_v0_0 := by
  obtain ⟨-, -, -, -, e0, e1, -⟩ := idx_facts1 t
  funext y
  unfold iblk1
  rw [View.read_apply]
  show V c main_v0_0 _ = V c main_v0_0 y
  congr 1
  funext a
  apply Fin.ext
  match a with
  | ⟨0, _⟩ => show win1_2.index t 0 * 256 + 1 * (y 0).val = (y 0).val; rw [e0]; omega
  | ⟨1, _⟩ => show win1_2.index t 1 * 1024 + 1 * (y 1).val = (y 1).val; rw [e1]; omega

/-- The norm row's block at every point is the row. -/
theorem iblk1_3_eq (c : Dev nD) (t : Fin cfg1.N) : (iblk1 V c 3 t : Vec Ideal S1x1024 .f32) = V c main_v0_1 := by
  obtain ⟨-, -, -, -, -, -, e0, e1, -⟩ := idx_facts1 t
  funext y
  unfold iblk1
  rw [View.read_apply]
  show V c main_v0_1 _ = V c main_v0_1 y
  congr 1
  funext a
  apply Fin.ext
  match a with
  | ⟨0, _⟩ => show win1_3.index t 0 * 1 + 1 * (y 0).val = (y 0).val; rw [e0]; omega
  | ⟨1, _⟩ => show win1_3.index t 1 * 1024 + 1 * (y 1).val = (y 1).val; rw [e1]; omega

/-- Batch row 512 t + p, the row of the array that row p of point t's block is. -/
def rowOf (t : Fin cfg1.N) (p : Fin 512) : Fin 16384 :=
  ⟨512 * t.val + p.val, by have hN : cfg1.N = 32 := N_1
                           have := t.isLt; have := p.isLt; omega⟩

/-- Row p of point t's batch block is row 512 t + p of the batch. -/
theorem row_iblk1_0 (c : Dev nD) (t : Fin cfg1.N) (p : Fin 512) :
    Lsh.row (iblk1 V c 0 t : Vec Ideal S512x1024 .f32) p = Lsh.row (V c main_arg0) (rowOf t p) := by
  obtain ⟨e0, e1, -⟩ := idx_facts1 t
  funext i
  unfold Lsh.row iblk1
  rw [View.read_apply]
  show V c main_arg0 _ = V c main_arg0 (ix2 (rowOf t p) i)
  congr 1
  funext a
  apply Fin.ext
  match a with
  | ⟨0, _⟩ => show win1_0.index t 0 * 512 + 1 * p.val = 512 * t.val + p.val; rw [e0]; omega
  | ⟨1, _⟩ => show win1_0.index t 1 * 1024 + 1 * i.val = i.val; rw [e1]; omega

/-- What point t writes back through the result's window is block t of `blockOut` of the entry arrays. -/
theorem flushed1_4_eq (c : Dev nD) (t : Fin cfg1.N) :
    (dat1 V c).flushed 4 t = ((cfg1.win 4).blk t).view.read (Elt Ideal)
      (blockOut (V c main_arg0) (V c main_arg2) (V c main_v0_0) (V c main_v0_1)) := by
  obtain ⟨-, -, -, -, -, -, -, -, e0, e1⟩ := idx_facts1 t
  show (cfg1.win 4).cut (grid1.coords t) ((dat1 V c).after 4 t) = _
  rw [after1_4]
  unfold out1_4
  rw [View.canon_unit_zero hz]
  simp only [View.ld_unit_zero (S := S512x1024) hz, View.ld_unit_zero (S := S256x1024) hz, View.ld_unit_zero (S := S1x1024) hz]
  rw [iblk1_1_eq, iblk1_2_eq, iblk1_3_eq]
  funext j
  obtain ⟨p, mm, rfl⟩ : ∃ (p : Fin 512) (mm : Fin 1024), j = ix2 p mm := ⟨j 0, j 1, eq_ix2 j⟩
  show k1_pay1 (iblk1 V c 0 t) (V c main_arg2) (V c main_v0_0) (V c main_v0_1) (ix2 p mm)
    = blockOut (V c main_arg0) (V c main_arg2) (V c main_v0_0) (V c main_v0_1) (((cfg1.win 4).blk t).view.emb (ix2 p mm))
  refine (Payload.main_entry _ _ _ _ p mm).trans ?_
  have he : ((cfg1.win 4).blk t).view.emb (ix2 p mm) = ix2 (rowOf t p) mm := by
    funext a
    apply Fin.ext
    match a with
    | ⟨0, _⟩ => show win1_4.index t 0 * 512 + 1 * p.val = 512 * t.val + p.val; rw [e0]; omega
    | ⟨1, _⟩ => show win1_4.index t 1 * 1024 + 1 * mm.val = mm.val; rw [e1]; omega
  rw [he, row_iblk1_0]
  rfl

/-- Every entry of the result lies in the block of the point its row belongs to. -/
theorem cover1_4 (i : S16384x1024.Idx) : ∃ t : Fin cfg1.N, (cfg1.win 4).flush t = true ∧ i ∈ ((cfg1.win 4).blk t).view.set := by
  have h0 : (i 0).val < 16384 := (i 0).isLt
  have h1 : (i 1).val < 1024 := (i 1).isLt
  let t : Fin cfg1.N := ⟨(i 0).val / 512, by have hN : cfg1.N = 32 := N_1; omega⟩
  obtain ⟨-, -, -, -, -, -, -, -, e0, e1⟩ := idx_facts1 t
  refine ⟨t, flush1_4 t, ?_⟩
  show i ∈ ((View.whole main_v1).slice (win1_4.rect t)).set
  rw [View.set_slice_whole, Rect.mem_set_unit]
  intro a
  have ht : t.val = (i 0).val / 512 := rfl
  match a with
  | ⟨0, _⟩ => show win1_4.index t 0 * 512 ≤ (i 0).val ∧ (i 0).val < win1_4.index t 0 * 512 + 512; rw [e0, ht]; omega
  | ⟨1, _⟩ => show win1_4.index t 1 * 1024 ≤ (i 1).val ∧ (i 1).val < win1_4.index t 1 * 1024 + 1024; rw [e1]; omega

/-- After the second region the result array holds `blockOut` of the entry arrays. -/
theorem final1_4 (c : Dev nD) :
    (dat1 V c).arrAt 4 cfg1.N = blockOut (V c main_arg0) (V c main_arg2) (V c main_v0_0) (V c main_v0_1) :=
  (dat1 V c).arrAt_eq_of_cover 4 _ (fun t _ => flushed1_4_eq V c t) cover1_4

end Regions

/-! ## The run -/

variable (m : (ℓ : Loc nD τ sig) → Buf (Elt Ideal) ℓ) (ρ : Dev nD → PrngReg)

/-- The second region is entered with the batch as launched: the first region does not touch it. -/
theorem entry_batch (c : Dev nD) : V1 m ρ c main_arg0 = m ((c : Thread nD τ).loc main_arg0) :=
  W1_of_ne m ρ c main_arg0 (by decide)

/-- The second region is entered with the projection matrix as launched: the first region only reads it. -/
theorem entry_proj (c : Dev nD) : V1 m ρ c main_arg2 = m ((c : Thread nD τ).loc main_arg2) :=
  (W1_arr m ρ c 1).trans (((dat0 (V0 m ρ) c).arrAt_in 1 rfl _).trans (A_eq0 (V0 m ρ) c 1))

/-- The second region is entered with the code table of the launched weights and projection matrix. -/
theorem entry_codes (c : Dev nD) :
    V1 m ρ c main_v0_0 = codeTable (m ((c : Thread nD τ).loc main_arg1)) (m ((c : Thread nD τ).loc main_arg2)) :=
  (W1_arr m ρ c 2).trans (final0_2 (V0 m ρ) c)

/-- The second region is entered with the norm row of the launched weights. -/
theorem entry_norms (c : Dev nD) : V1 m ρ c main_v0_1 = normRow (m ((c : Thread nD τ).loc main_arg1)) :=
  (W1_arr m ρ c 3).trans (final0_3 (V0 m ρ) c)

/-- Fed the code table and the norm row of the weights, the second region's function is the specification. -/
theorem blockOut_tables (x : S16384x1024.Idx → EReal) (w : S1024x1024.Idx → EReal) (P : S256x1024.Idx → EReal) :
    blockOut x P (codeTable w P) (normRow w) = Lsh.result x w P := by
  funext i
  rfl

/-- After the run the result array holds the specification of the launched arguments. -/
theorem result_array (c : Dev nD) :
    V2 m ρ c main_v1 = Lsh.result (m ((c : Thread nD τ).loc main_arg0)) (m ((c : Thread nD τ).loc main_arg1))
      (m ((c : Thread nD τ).loc main_arg2)) := by
  refine (W2_arr m ρ c 4).trans ((final1_4 (V1 m ρ) c).trans ?_)
  rw [entry_batch, entry_proj, entry_codes, entry_norms]
  exact blockOut_tables _ _ _

/-- The kernel program's run with its result named: the specification of the arguments, which end as launched. -/
theorem run : θ_run defs (onTc (τ := τ) (main (F := Ideal))) ⟨m, fun _ => 0, ρ⟩ (fun r => ∀ c : Dev nD,
      r.2.mem ((c.tc : Thread nD τ).loc main_v1) = Lsh.result (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_array m ρ c), (h c).2⟩) (GenRun.run_main m ρ)

end Cert.KernelIdeal.Arrays

end
-- ==== Proof.RefValue.lean ====
/-
  The reference program's result read at one entry: entry (b, m) is the specification's entry of batch row b and weight
  row m.  Each stage is read at an index in turn: the row sums of squares, their square roots plus epsilon, the quotients,
  the two projections against the transposed matrix, the comparisons and selections, the product of the code tables,
  and the final cosine and products.
-/
import proofs.«138626_j85538568667753_1_alg».proof.Proof.Gen.ReferenceIdeal.Read
import proofs.«138626_j85538568667753_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read

/-! ## The generated index maps at coordinate indices -/

/-- Row b of the batch, column k: the index the row sum of squares reads. -/
private theorem idx_x_sq (b : Fin 16384) (k : Fin 1024) :
    idx_main_call0_v1 (idx_main_call0_v2 (ix2 b (0 : Fin 1))) k = ix2 b k :=
  funext fun a => by match a with | ⟨0, _⟩ => rfl | ⟨1, _⟩ => rfl

/-- Row m of the weights, column k: the index the row sum of squares reads. -/
private theorem idx_w_sq (m : Fin 1024) (k : Fin 1024) :
    idx_main_call1_v1 (idx_main_call1_v2 (ix2 m (0 : Fin 1))) k = ix2 m k :=
  funext fun a => by match a with | ⟨0, _⟩ => rfl | ⟨1, _⟩ => rfl

private theorem idx_x_bcast (b : Fin 16384) (i : Fin 1024) : idx_main_v3 (ix2 b i) = ix2 b (0 : Fin 1) :=
  funext fun a => by match a with | ⟨0, _⟩ => rfl | ⟨1, _⟩ => rfl

private theorem idx_w_bcast (m : Fin 1024) (i : Fin 1024) : idx_main_v8 (ix2 m i) = ix2 m (0 : Fin 1) :=
  funext fun a => by match a with | ⟨0, _⟩ => rfl | ⟨1, _⟩ => rfl

private theorem lidx_x_proj (b : Fin 16384) (k : Fin 256) (i : Fin 1024) : lidx_main_v11 (ix2 b k) i = ix2 b i :=
  funext fun a => by match a with | ⟨0, _⟩ => rfl | ⟨1, _⟩ => rfl

private theorem ridx_x_proj (b : Fin 16384) (k : Fin 256) (i : Fin 1024) :
    idx_main_v10 (ridx_main_v11 (ix2 b k) i) = ix2 k i :=
  funext fun a => by match a with | ⟨0, _⟩ => rfl | ⟨1, _⟩ => rfl

private theorem lidx_w_proj (m : Fin 1024) (k : Fin 256) (i : Fin 1024) : lidx_main_v17 (ix2 m k) i = ix2 m i :=
  funext fun a => by match a with | ⟨0, _⟩ => rfl | ⟨1, _⟩ => rfl

private theorem ridx_w_proj (m : Fin 1024) (k : Fin 256) (i : Fin 1024) :
    idx_main_v16 (ridx_main_v17 (ix2 m k) i) = ix2 k i :=
  funext fun a => by match a with | ⟨0, _⟩ => rfl | ⟨1, _⟩ => rfl

private theorem idx_w_code_t (k : Fin 256) (m : Fin 1024) : idx_main_v22 (ix2 k m) = ix2 m k :=
  funext fun a => by match a with | ⟨0, _⟩ => rfl | ⟨1, _⟩ => rfl

private theorem lidx_agree (b : Fin 16384) (m : Fin 1024) (k : Fin 256) : lidx_main_v23 (ix2 b m) k = ix2 b k :=
  funext fun a => by match a with | ⟨0, _⟩ => rfl | ⟨1, _⟩ => rfl

private theorem ridx_agree (b : Fin 16384) (m : Fin 1024) (k : Fin 256) : ridx_main_v23 (ix2 b m) k = ix2 k m :=
  funext fun a => by match a with | ⟨0, _⟩ => rfl | ⟨1, _⟩ => rfl

private theorem idx_x_norm_bcast (b : Fin 16384) (m : Fin 1024) : idx_main_v32 (ix2 b m) = ix2 b (0 : Fin 1) :=
  funext fun a => by match a with | ⟨0, _⟩ => rfl | ⟨1, _⟩ => rfl

private theorem idx_w_norm_bcast (b : Fin 16384) (m : Fin 1024) :
    idx_main_v31 (idx_main_v33 (ix2 b m)) = ix2 m (0 : Fin 1) :=
  funext fun a => by match a with | ⟨0, _⟩ => rfl | ⟨1, _⟩ => rfl

/-! ## The norms -/

/-- The batch's norm column at row b is the specification's norm of that row. -/
private theorem xnorm (x : (⟨S16384x1024, .f32⟩ : BufTy).Contents (Elt Ideal)) (b : Fin 16384) :
    val_main_v2 (F := Ideal) x (ix2 b (0 : Fin 1)) = Lsh.rowNorm (Lsh.row x b) := by
  rw [val_main_v2_apply, val_main_v0_apply, val_main_call0_v2_apply, val_main_call0_v1_apply,
    val_main_v1_apply, val_main_cst_apply, val_main_call0_cst_apply]
  simp only [val_main_call0_v0_apply, idx_x_sq]
  simp only [Ideal.mulf_def, Ideal.addf_def, Ideal.hostUnary_sqrt_def, Ideal.ofBits_def, Ideal.ofBits_zero_f32,
    zero_add]
  rfl

/-- The weights' norm column at row m is the specification's norm of that row. -/
private theorem wnorm (w : (⟨S1024x1024, .f32⟩ : BufTy).Contents (Elt Ideal)) (m : Fin 1024) :
    val_main_v7 (F := Ideal) w (ix2 m (0 : Fin 1)) = Lsh.rowNorm (Lsh.row w m) := by
  rw [val_main_v7_apply, val_main_v5_apply, val_main_call1_v2_apply, val_main_call1_v1_apply,
    val_main_v6_apply, val_main_cst_0_apply, val_main_call1_cst_apply]
  simp only [val_main_call1_v0_apply, idx_w_sq]
  simp only [Ideal.mulf_def, Ideal.addf_def, Ideal.hostUnary_sqrt_def, Ideal.ofBits_def, Ideal.ofBits_zero_f32,
    zero_add]
  rfl

/-! ## The projections and the sign codes -/

/-- The batch's projection table at (b, k): the normalised row b against projection row k. -/
private theorem xproj (x : (⟨S16384x1024, .f32⟩ : BufTy).Contents (Elt Ideal))
    (P : (⟨S256x1024, .f32⟩ : BufTy).Contents (Elt Ideal)) (b : Fin 16384) (k : Fin 256) :
    val_main_v11 (F := Ideal) x P (ix2 b k) = Lsh.proj (Lsh.row x b) P k := by
  rw [val_main_v11_apply]
  refine Finset.sum_congr rfl fun i _ => ?_
  rw [val_main_v4_apply, val_main_v3_apply, val_main_v10_apply, lidx_x_proj, ridx_x_proj, idx_x_bcast, xnorm]
  rfl

/-- The weights' projection table at (m, k): the normalised row m against projection row k. -/
private theorem wproj (w : (⟨S1024x1024, .f32⟩ : BufTy).Contents (Elt Ideal))
    (P : (⟨S256x1024, .f32⟩ : BufTy).Contents (Elt Ideal)) (m : Fin 1024) (k : Fin 256) :
    val_main_v17 (F := Ideal) w P (ix2 m k) = Lsh.proj (Lsh.row w m) P k := by
  rw [val_main_v17_apply]
  refine Finset.sum_congr rfl fun i _ => ?_
  rw [val_main_v9_apply, val_main_v8_apply, val_main_v16_apply, lidx_w_proj, ridx_w_proj, idx_w_bcast, wnorm]
  rfl

/-- The batch's code table at (b, k). -/
private theorem xcode (x : (⟨S16384x1024, .f32⟩ : BufTy).Contents (Elt Ideal))
    (P : (⟨S256x1024, .f32⟩ : BufTy).Contents (Elt Ideal)) (b : Fin 16384) (k : Fin 256) :
    val_main_v15 (F := Ideal) x P (ix2 b k) = Lsh.code (Lsh.row x b) P k := by
  rw [val_main_v15_apply, val_main_v14_apply, val_main_v13_apply, val_main_v12_apply, val_main_cst_1_apply,
    val_main_call2_v0_apply, val_main_cst_2_apply, val_main_call2_v1_apply, val_main_cst_3_apply, xproj]
  rfl

/-- The weights' transposed code table at (k, m). -/
private theorem wcode (w : (⟨S1024x1024, .f32⟩ : BufTy).Contents (Elt Ideal))
    (P : (⟨S256x1024, .f32⟩ : BufTy).Contents (Elt Ideal)) (k : Fin 256) (m : Fin 1024) :
    val_main_v22 (F := Ideal) w P (ix2 k m) = Lsh.code (Lsh.row w m) P k := by
  rw [val_main_v22_apply, idx_w_code_t, val_main_v21_apply, val_main_v20_apply, val_main_v19_apply,
    val_main_v18_apply, val_main_cst_4_apply, val_main_call3_v0_apply, val_main_cst_5_apply,
    val_main_call3_v1_apply, val_main_cst_6_apply, wproj]
  rfl

/-! ## The agreement count, the cosine and the product of norms -/

/-- The product of the two code tables at (b, m): the sum over the 256 codes of the products. -/
private theorem agree (x : (⟨S16384x1024, .f32⟩ : BufTy).Contents (Elt Ideal)) (w : (⟨S1024x1024, .f32⟩ : BufTy).Contents (Elt Ideal))
    (P : (⟨S256x1024, .f32⟩ : BufTy).Contents (Elt Ideal)) (b : Fin 16384) (m : Fin 1024) :
    val_main_v23 (F := Ideal) x w P (ix2 b m)
      = ∑ k : Fin 256, Lsh.code (Lsh.row x b) P k * Lsh.code (Lsh.row w m) P k := by
  rw [val_main_v23_apply]
  refine Finset.sum_congr rfl fun k _ => ?_
  rw [lidx_agree, ridx_agree, xcode, wcode]

/-- The cosine stage at (b, m). -/
private theorem cosStage (x : (⟨S16384x1024, .f32⟩ : BufTy).Contents (Elt Ideal)) (w : (⟨S1024x1024, .f32⟩ : BufTy).Contents (Elt Ideal))
    (P : (⟨S256x1024, .f32⟩ : BufTy).Contents (Elt Ideal)) (b : Fin 16384) (m : Fin 1024) :
    val_main_v30 (F := Ideal) x w P (ix2 b m)
      = Lsh.cosOf (∑ k : Fin 256, Lsh.code (Lsh.row x b) P k * Lsh.code (Lsh.row w m) P k) := by
  rw [val_main_v30_apply, val_main_v29_apply, val_main_v28_apply, val_main_cst_9_apply, val_main_v27_apply,
    val_main_v26_apply, val_main_cst_8_apply, val_main_v25_apply, val_main_v24_apply, val_main_cst_7_apply, agree]
  rfl

/-- The product of the two norm broadcasts at (b, m). -/
private theorem normProd (x : (⟨S16384x1024, .f32⟩ : BufTy).Contents (Elt Ideal)) (w : (⟨S1024x1024, .f32⟩ : BufTy).Contents (Elt Ideal))
    (b : Fin 16384) (m : Fin 1024) :
    val_main_v34 (F := Ideal) x w (ix2 b m) = Lsh.rowNorm (Lsh.row x b) * Lsh.rowNorm (Lsh.row w m) := by
  rw [val_main_v34_apply, val_main_v32_apply, val_main_v33_apply, val_main_v31_apply, idx_x_norm_bcast,
    idx_w_norm_bcast, xnorm, wnorm]
  rfl

/-- The reference's last stage at entry (b, m). -/
theorem result_entry (x : (⟨S16384x1024, .f32⟩ : BufTy).Contents (Elt Ideal)) (w : (⟨S1024x1024, .f32⟩ : BufTy).Contents (Elt Ideal))
    (P : (⟨S256x1024, .f32⟩ : BufTy).Contents (Elt Ideal)) (b : Fin 16384) (m : Fin 1024) :
    val_main_v35 (F := Ideal) x w P (ix2 b m) = Lsh.entry (Lsh.row x b) (Lsh.row w m) P := by
  rw [val_main_v35_apply, normProd, cosStage]
  rfl

/-- The reference's result array is the specification's. -/
theorem result_eq (x : (⟨S16384x1024, .f32⟩ : BufTy).Contents (Elt Ideal)) (w : (⟨S1024x1024, .f32⟩ : BufTy).Contents (Elt Ideal))
    (P : (⟨S256x1024, .f32⟩ : BufTy).Contents (Elt Ideal)) :
    val_main_v35 (F := Ideal) x w P = Lsh.result x w P := by
  funext j
  obtain ⟨b, m, rfl⟩ : ∃ (b : Fin 16384) (m : Fin 1024), j = ix2 b m := ⟨j 0, j 1, eq_ix2 j⟩
  exact result_entry x w P b m

end Cert.ReferenceIdeal.RefValue

end
-- ==== Proof.lean ====
/-
  The kernel and the reference compute one function on the extended reals.

  Each batch row x_b and each weight row w_m is given the norm n(v) = sqrt (sum_i v_i^2) + 2^-23 and, against the 256 rows
  of the projection matrix P, the sign codes c_k(v) = 1 if sum_i (v_i / n(v)) * P_{k,i} >= 0 and -1 otherwise; the result
  entry (b, m) is n(x_b) * n(w_m) * cos (pi/2 * (1 - (sum_k c_k(x_b) * c_k(w_m)) / 256)).  The kernel program does this in
  two regions: the first leaves the weights' code table (transposed) and norm row, the second, 512 batch rows at a point,
  forms the batch rows' norms and codes, multiplies the codes against the table and finishes the entry; the reference
  does it with whole-array operations.  Square root, cosine, quotient, a matrix product into a zero accumulator and a
  row sum are the same exact operations on both sides, a change of float format is the identity, and the one difference
  in form, the order of the two factors in the first region's inner products, is commutativity of the product.  No
  finiteness is used: the two sides are the same term of the arguments, whatever extended reals they hold.

  The frames of the two kernel programs are the generated ones; the reference's is its run with the result dropped;
  the idealization rewrote nothing.
-/
import proofs.«138626_j85538568667753_1_alg».proof.Defs
import proofs.«138626_j85538568667753_1_alg».proof.Proof.Gen.Kernel
import proofs.«138626_j85538568667753_1_alg».proof.Proof.Gen.Kernel.Frame
import proofs.«138626_j85538568667753_1_alg».proof.Proof.Gen.KernelIdeal
import proofs.«138626_j85538568667753_1_alg».proof.Proof.Gen.KernelIdeal.Frame
import proofs.«138626_j85538568667753_1_alg».proof.Proof.Gen.ReferenceIdeal
import proofs.«138626_j85538568667753_1_alg».proof.Proof.Gen.ReferenceIdeal.Run
import proofs.«138626_j85538568667753_1_alg».proof.Proof.Gen.ReferenceIdeal.Read
import proofs.«138626_j85538568667753_1_alg».proof.Proof.Gen.Pre_finite_inputs
import proofs.«138626_j85538568667753_1_alg».proof.Proof.KernelValue
import proofs.«138626_j85538568667753_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the specification of their arguments, and the arguments agree. -/
theorem algebraic : Cert.algebraic_KernelIdeal_ReferenceIdeal := by
  intro m ρ m' ρ' _ hagree
  refine ⟨fun c => Cert.Lsh.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v35_eq _ _ _).trans (Cert.ReferenceIdeal.RefValue.result_eq _ _ _)).trans ?_
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
